-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S1000x2048 : Shape := ⟨2, ![1000, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S1000x2048 : S_.BroadcastsInDim S1000x2048 (![] : Fin 0 → Fin S1000x2048.rank)
  reducesTo_S1000x2048_S_d0_1 : S1000x2048.ReducesTo [0, 1] S_

variable [Facts]

def fn {F : FTy → Type} [FloatOps F] (main_arg0 : FVec F S16384x2048 .f32) (main_arg1 : FVec F S1000x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S1000x2048 .f32 := Host.absf main_arg1
  let main_cst_0 : FVec F S_ .f32 := constant S_ .f32 0x7F800000#32
  let main_v5 : FVec F S1000x2048 .f32 := broadcastInDim S1000x2048 ![] bcast_S_S1000x2048 main_cst_0
  let main_v6 : IVec S1000x2048 1 := cmpf .olt main_v4 main_v5
  let main_c_1 : IVec S_ 1 := constantI S_ 1 1#1
  let main_v7 : IVec S_ 1 := (fun x v => Host.reduce IntOp.andi x v reducesTo_S1000x2048_S_d0_1 h_S_) main_v6 main_c_1
  let main_v8 : IVec S_ 1 := andi main_v3 main_v7
  main_v8
-- ==== Kernel.lean ====
abbrev S16384x2048 : Shape := ⟨2, ![16384, 2048]⟩
abbrev S1000x2048 : Shape := ⟨2, ![1000, 2048]⟩
abbrev S_ : Shape := ⟨0, ![]⟩
abbrev S1000 : Shape := ⟨1, ![1000]⟩
abbrev S1x1000 : Shape := ⟨2, ![1, 1000]⟩
abbrev S16384x1000 : Shape := ⟨2, ![16384, 1000]⟩
abbrev S512x2048 : Shape := ⟨2, ![512, 2048]⟩
abbrev S512x1000 : Shape := ⟨2, ![512, 1000]⟩
abbrev S512 : Shape := ⟨1, ![512]⟩
abbrev S512x1 : Shape := ⟨2, ![512, 1]⟩

abbrev nBuf : Space → Nat
  | .hbm => 8
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S1000x2048, .f32⟩
  | .hbm, ⟨2, _⟩ => ⟨S1000x2048, .bf16⟩
  | .hbm, ⟨3, _⟩ => ⟨S1000x2048, .f32⟩
  | .hbm, ⟨4, _⟩ => ⟨S_, .f32⟩
  | .hbm, ⟨5, _⟩ => ⟨S1000, .f32⟩
  | .hbm, ⟨6, _⟩ => ⟨S1x1000, .f32⟩
  | .hbm, ⟨7, _⟩ => ⟨S16384x1000, .f32⟩
  | .local _ .vmem, ⟨0, _⟩ => ⟨S512x2048, .f32⟩
  | .local _ .vmem, ⟨1, _⟩ => ⟨S512x2048, .f32⟩
  | .local _ .vmem, ⟨2, _⟩ => ⟨S1000x2048, .bf16⟩
  | .local _ .vmem, ⟨3, _⟩ => ⟨S1x1000, .f32⟩
  | .local _ .vmem, ⟨4, _⟩ => ⟨S512x1000, .f32⟩
  | .local _ .vmem, ⟨5, _⟩ => ⟨S512x1000, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  reducesTo_S1000x2048_S1000_d1 : S1000x2048.ReducesTo [1] S1000
  h_S_ : 0 < S_.numel
  bcast_S1000_S1x1000_1 : S1000.BroadcastsInDim S1x1000 (![1] : Fin 1 → Fin S1x1000.rank)
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  inb_S1000x2048_S1000x2048_0_0 : ∀ a, (![0, 0] : Fin 2 → Nat) a + S1000x2048.size a ≤ S1000x2048.size a
  h_S1000x2048 : 0 < S1000x2048.numel
  shapeCasts_S1000x2048_S1000x2048 : S1000x2048.ShapeCasts S1000x2048
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S512x1_S512x1000 : S512x1.Broadcasts S512x1000
  broadcasts_S1x1000_S512x1000 : S1x1000.Broadcasts S512x1000
  inb_S512x1000_S512x1000_0_0 : ∀ a, (![0, 0] : Fin 2 → Nat) a + S512x1000.size a ≤ S512x1000.size a
  h_S512x1000 : 0 < S512x1000.numel
  dot_S512x2048_S1000x2048_S512x1000_1_1_0_0_n_n_wf : DotDims.WF S512x2048 S1000x2048 S512x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x2048.size a ≤ S1000x2048.size a
  hwx0_1 : ∀ i : grid0.Coords, EltTy.bits .bf16 = 32 ∨ (Rect.block (s := S1000x2048) S1000x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1000.size a ≤ S1x1000.size a
  hwx0_2 : ∀ i : grid0.Coords, EltTy.bits .f32 = 32 ∨ (Rect.block (s := S1x1000) S1x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1000.size a ≤ S16384x1000.size a
  hwx0_3 : ∀ i : grid0.Coords, EltTy.bits .f32 = 32 ∨ (Rect.block (s := S16384x1000) S512x1000.size (cc0_transform_3 i) (hinb0_3 i)).WholeWords (EltTy.packing .f32)

variable [Facts₀]

def dot_S512x2048_S1000x2048_S512x1000_1_1_0_0_n_n : DotDims S512x2048 S1000x2048 S512x1000 where
  lhsContracting := [1]
  rhsContracting := [1]
  lhsNonContracting := [0]
  rhsNonContracting := [0]
  lhsBatch := []
  rhsBatch := []
  wf := dot_S512x2048_S1000x2048_S512x1000_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1000x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x1000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S1000x2048 : Shape := ⟨2, ![1000, 2048]⟩
abbrev S_ : Shape := ⟨0, ![]⟩
abbrev S16384 : Shape := ⟨1, ![16384]⟩
abbrev S16384x1 : Shape := ⟨2, ![16384, 1]⟩
abbrev S1000 : Shape := ⟨1, ![1000]⟩
abbrev S16384x1000 : Shape := ⟨2, ![16384, 1000]⟩
abbrev S1x1000 : Shape := ⟨2, ![1, 1000]⟩

abbrev nBuf : Space → Nat
  | .hbm => 29
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1000x2048, .f32⟩
  | .hbm, ⟨2, _⟩ => ⟨S_, .f32⟩
  | .hbm, ⟨3, _⟩ => ⟨S16384x2048, .f32⟩
  | .hbm, ⟨4, _⟩ => ⟨S16384x2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S1000x2048, .f32⟩
  | .hbm, ⟨10, _⟩ => ⟨S_, .f32⟩
  | .hbm, ⟨11, _⟩ => ⟨S1000, .f32⟩
  | .hbm, ⟨12, _⟩ => ⟨S16384x1000, .f32⟩
  | .hbm, ⟨13, _⟩ => ⟨S1x1000, .f32⟩
  | .hbm, ⟨14, _⟩ => ⟨S16384x1000, .f32⟩
  | .hbm, ⟨15, _⟩ => ⟨S16384x1000, .f32⟩
  | .hbm, ⟨16, _⟩ => ⟨S16384x1000, .f32⟩
  | .hbm, ⟨17, _⟩ => ⟨S_, .f32⟩
  | .hbm, ⟨18, _⟩ => ⟨S16384x1000, .f32⟩
  | .hbm, ⟨19, _⟩ => ⟨S16384x1000, .f32⟩
  | .hbm, ⟨20, _⟩ => ⟨S16384x1000, .f32⟩
  | .hbm, ⟨21, _⟩ => ⟨S_, .f32⟩
  | .hbm, ⟨22, _⟩ => ⟨S16384x1000, .f32⟩
  | .hbm, ⟨23, _⟩ => ⟨S16384x1000, .f32⟩
  | .hbm, ⟨24, _⟩ => ⟨S16384x1000, .f32⟩
  | .hbm, ⟨25, _⟩ => ⟨S16384x1000, .f32⟩
  | .hbm, ⟨26, _⟩ => ⟨S_, .f32⟩
  | .hbm, ⟨27, _⟩ => ⟨S16384x1000, .f32⟩
  | .hbm, ⟨28, _⟩ => ⟨S16384x1000, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  bcast_S_S16384x2048 : S_.BroadcastsInDim S16384x2048 (![] : Fin 0 → Fin S16384x2048.rank)
  reducesTo_S16384x2048_S16384_d1 : S16384x2048.ReducesTo [1] S16384
  h_S_ : 0 < S_.numel
  bcast_S16384_S16384x1_0 : S16384.BroadcastsInDim S16384x1 (![0] : Fin 1 → Fin S16384x1.rank)
  reducesTo_S1000x2048_S1000_d1 : S1000x2048.ReducesTo [1] S1000
  bcast_S1000_S1x1000_1 : S1000.BroadcastsInDim S1x1000 (![1] : Fin 1 → Fin S1x1000.rank)
  bcast_S16384x1_S16384x1000_0_1 : S16384x1.BroadcastsInDim S16384x1000 (![0, 1] : Fin 2 → Fin S16384x1000.rank)
  bcast_S1x1000_S16384x1000_0_1 : S1x1000.BroadcastsInDim S16384x1000 (![0, 1] : Fin 2 → Fin S16384x1000.rank)
  bcast_S_S16384x1000 : S_.BroadcastsInDim S16384x1000 (![] : Fin 0 → Fin S16384x1000.rank)
  dot_S16384x2048_S1000x2048_S16384x1000_1_1_0_0_n_n_wf : DotDims.WF S16384x2048 S1000x2048 S16384x1000 [1] [1] [0] [0] [] []

variable [Facts₀]

def dot_S16384x2048_S1000x2048_S16384x1000_1_1_0_0_n_n : DotDims S16384x2048 S1000x2048 S16384x1000 where
  lhsContracting := [1]
  rhsContracting := [1]
  lhsNonContracting := [0]
  rhsNonContracting := [0]
  lhsBatch := []
  rhsBatch := []
  wf := dot_S16384x2048_S1000x2048_S16384x1000_1_1_0_0_n_n_wf

class Facts : Prop extends Facts₀ where

variable [Facts]
-- ==== Proof.Spec.lean ====
/-
  The value both programs compute, as one function of the two argument arrays.

  For features x : [16384, 2048] and prototypes p : [1000, 2048] (extended reals), with x' = x + ε
  (ε the f32 word nearest 1e-6, kept as its word), entry (b, c) of the result is

      -( sqrt (max ((Σ_k x'[b,k]²  +  Σ_k p[c,k]²)  -  2 · Σ_k x'[b,k] · p[c,k])  0) ) / 1

  the negated Euclidean distance between row b of x' and row c of p, written through the expansion
  ‖x' - p‖² = ‖x'‖² + ‖p‖² - 2 x'·p, clamped at zero before the root. Nothing here needs the inputs finite:
  both programs perform exactly these operations, in this grouping.
-/
import Idealize.ShloMosaic.PureOps.Ideal
import Idealize.ShloMosaic.PureOps.Ideal.Laws
import Idealize.ShloMosaic.Lib.ValueIdx

noncomputable section

open scoped BigOperators

namespace Cert.NegDist

open Idealize.ShloMosaic Idealize.ShloMosaic.ValueIdx

/-- The features' shape, the prototypes' and the result's. -/
abbrev SX : Shape := ⟨2, ![16384, 2048]⟩
abbrev SP : Shape := ⟨2, ![1000, 2048]⟩
abbrev SO : Shape := ⟨2, ![16384, 1000]⟩

/-- The shift ε added to every feature (the f32 word of 1e-6), the factor 2 and the divisor 1, as their words. -/
def eps : EReal := Ideal.ofBits .f32 0x358637BD#32
def two : EReal := Ideal.ofBits .f32 0x40000000#32
def one : EReal := Ideal.ofBits .f32 0x3F800000#32

/-- Row b of the shifted features, at column k. -/
def shifted (x : SX.Idx → EReal) (b : Fin 16384) (k : Fin 2048) : EReal := x (ix2 b k) + eps

/-- The squared norm of row b of the shifted features. -/
def xsq (x : SX.Idx → EReal) (b : Fin 16384) : EReal := ∑ k : Fin 2048, shifted x b k * shifted x b k

/-- The squared norm of prototype c. -/
def psq (p : SP.Idx → EReal) (c : Fin 1000) : EReal := ∑ k : Fin 2048, p (ix2 c k) * p (ix2 c k)

/-- The inner product of row b of the shifted features with prototype c. -/
def cross (x : SX.Idx → EReal) (p : SP.Idx → EReal) (b : Fin 16384) (c : Fin 1000) : EReal :=
  ∑ k : Fin 2048, shifted x b k * p (ix2 c k)

/-- The last steps, from the three sums: clamp the expanded squared distance at zero, take the root, negate, divide by 1. -/
def finish (sx sp cr : EReal) : EReal := Ideal.div (-(Ideal.sqrt (max (sx + sp - two * cr) 0))) one

/-- Entry (b, c) of the result. -/
def negDist (x : SX.Idx → EReal) (p : SP.Idx → EReal) (b : Fin 16384) (c : Fin 1000) : EReal :=
  finish (xsq x b) (psq p c) (cross x p b c)

/-- The whole result array. -/
def G (x : SX.Idx → EReal) (p : SP.Idx → EReal) : SO.Idx → EReal := fun i => negDist x p (i 0) (i 1)

theorem G_apply (x : SX.Idx → EReal) (p : SP.Idx → EReal) (b : Fin 16384) (c : Fin 1000) :
    G x p (ix2 b c) = negDist x p b c := rfl

end Cert.NegDist

end
-- ==== Proof.RefIsSpec.lean ====
/-
  The reference computes the specification: its last stage, read at (b, c), is the negated clamped distance of
  row b of the shifted features to prototype c. Each stage is read at an index from the one before it; the two row
  sums start from the zero word, which is the real 0, so the starting value drops out; the broadcast stages only
  re-index (row b's squared norm along the columns, prototype c's along the rows).
-/
import proofs.«109261_j73031623901227_1_alg».proof.Proof.Gen.ReferenceIdeal.Read
import proofs.«109261_j73031623901227_1_alg».proof.Proof.Spec

noncomputable section

open scoped BigOperators

namespace Cert.NegDist.Ref

open Cert.ReferenceIdeal Cert.ReferenceIdeal.Read Idealize.ShloMosaic Idealize.ShloMosaic.ValueIdx Cert.NegDist

/-- The squared-norm column of the features, broadcast along the columns, reads row b of the shifted features. -/
theorem idx_rowsum (b : Fin 16384) (c : Fin 1000) (k : Fin 2048) :
    idx_main_v3 (idx_main_v4 (idx_main_v9 (ix2 b c))) k = ix2 b k :=
  funext fun a => Fin.ext (by match a with | ⟨0, _⟩ => rfl | ⟨1, _⟩ => rfl)

/-- The squared-norm row of the prototypes, broadcast along the rows, reads prototype c. -/
theorem idx_protosum (b : Fin 16384) (c : Fin 1000) (k : Fin 2048) :
    idx_main_v6 (idx_main_v8 (idx_main_v10 (ix2 b c))) k = ix2 c k :=
  funext fun a => Fin.ext (by match a with | ⟨0, _⟩ => rfl | ⟨1, _⟩ => rfl)

/-- The product's left factor at (b, c), contraction index k, is the shifted features at (b, k) … -/
theorem idx_lhs (b : Fin 16384) (c : Fin 1000) (k : Fin 2048) : lidx_main_v7 (ix2 b c) k = ix2 b k :=
  funext fun a => Fin.ext (by match a with | ⟨0, _⟩ => rfl | ⟨1, _⟩ => rfl)

/-- … and its right factor the prototypes at (c, k). -/
theorem idx_rhs (b : Fin 16384) (c : Fin 1000) (k : Fin 2048) : ridx_main_v7 (ix2 b c) k = ix2 c k :=
  funext fun a => Fin.ext (by match a with | ⟨0, _⟩ => rfl | ⟨1, _⟩ => rfl)

/-- The reference's result is the specification. -/
theorem ref_eq (x0 : (⟨S16384x2048, .f32⟩ : BufTy).Contents (Elt Ideal)) (x1 : (⟨S1000x2048, .f32⟩ : BufTy).Contents (Elt Ideal)) :
    val_main_v20 (F := Ideal) x0 x1 = G x0 x1 := by
  funext i
  obtain ⟨b, c, rfl⟩ : ∃ (b : Fin 16384) (c : Fin 1000), i = ix2 b c := ⟨i 0, i 1, eq_ix2 i⟩
  rw [G_apply]
  simp only [val_main_v20_apply, val_main_v19_apply, val_main_v18_apply, val_main_v17_apply, val_main_v16_apply,
    val_main_v15_apply, val_main_v14_apply, val_main_v13_apply, val_main_v12_apply, val_main_v11_apply,
    val_main_v10_apply, val_main_v9_apply, val_main_v8_apply, val_main_v7_apply, val_main_v6_apply, val_main_v5_apply,
    val_main_v4_apply, val_main_v3_apply, val_main_v2_apply, val_main_v1_apply, val_main_v0_apply,
    val_main_cst_apply, val_main_cst_0_apply, val_main_cst_1_apply, val_main_cst_2_apply, val_main_cst_3_apply, val_main_cst_4_apply,
    idx_rowsum, idx_protosum, idx_lhs, idx_rhs,
    Ideal.ofBits_def, Ideal.addf_def, Ideal.mulf_def, Ideal.subf_def, Ideal.maximumf_def, Ideal.hostUnary_sqrt_def,
    Ideal.hostNegf_def, Ideal.negf_def, Ideal.hostDivf_def, Ideal.ofBits_zero_f32, zero_add]
  rfl

end Cert.NegDist.Ref

end
-- ==== Proof.LibColumn.lean ====
/-
  A row sum kept as a column: two layout steps read at an index, for any element type and any extents, and the
  square root of a vector of extended reals read at an index.

  * a vector [a] viewed as a column [a, 1] reads, at (p, u), the vector at p;
  * a column [a, 1] broadcast along the columns to [a, b] reads, at (p, q), the column at (p, 0).
-/
import Idealize.ShloMosaic.Lib.Pipeline.Value
import Idealize.ShloMosaic.Lib.ValueIdx

noncomputable section

namespace Cert.NegDist.Column

open Idealize.ShloMosaic Idealize.ShloMosaic.ValueIdx

section Layout
variable {α : Type}

/-- A vector [a] viewed as a column [a, 1] reads, at (p, u), the vector at p: both sit at row-major position p. -/
theorem column_of_vector_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column [a, 1] broadcast along the columns to [a, b] reads, at (p, q), the column at (p, 0): the row coordinate
    is kept (also when a = 1, where it is 0 anyway) and the unit axis reads its one coordinate. -/
theorem column_broadcast_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Layout

/-- The root of a vector of extended reals at an index is the root of the element. -/
theorem sqrt_apply {s : Shape} {φ : FTy} (a : FVec Ideal s φ) (i : s.Idx) : sqrt a i = Ideal.sqrt (a i) := rfl

end Cert.NegDist.Column

end
-- ==== Proof.Body.lean ====
/-
  The kernel body's stored value, read at one entry (p, q) of its [512, 1000] block.

  From its three loaded blocks — x0, a [512, 2048] block of feature rows; x1, the whole [1000, 2048] prototype array
  (in the narrower format, which at the ideal instance is the same extended real); x2, the [1, 1000] row of prototype
  squared norms — the body forms x' = x0 + ε, the row sums Σ_k x'[p,k]² kept as a column, the product
  Σ_k x'[p,k] · x1[q,k] over the shared feature axis, and then pointwise
      (0 - sqrt (max ((rowsum[p] + x2[0,q]) - 2 · product[p,q]) 0)) / 1.
  The column of row sums is broadcast along the columns and the row x2 along the rows; 0 - y is -y.
-/
import proofs.«109261_j73031623901227_1_alg».proof.Proof.Gen.KernelIdeal.Skeleton
import proofs.«109261_j73031623901227_1_alg».proof.Proof.Spec
import proofs.«109261_j73031623901227_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.NegDist.Body

open Cert.KernelIdeal Cert.KernelIdeal.Gen Idealize.ShloMosaic Idealize.ShloMosaic.ValueIdx Cert.NegDist Cert.NegDist.Column

/-! ## The lane sum of a [512, 2048] block along its second axis -/

/-- Row p of the sum is the sum over the 2048 columns of row p. -/
theorem rowsum_apply (v : FVec Ideal S512x2048 .f32) (h : S512x2048.Reduces [1] S512)
    (hacc : (0x00000000#32 : BitVec 32) = 0x00000000#32) (p : Fin 512) :
    multiReduction .add [1] S512 v 0x00000000#32 h (.inl rfl) hacc (ix1 p) = ∑ k : Fin 2048, v (ix2 p k) := by
  refine (Ideal.multiReduction_add_single v 0x00000000#32 h (.inl rfl) hacc (ix1 p)).trans ?_
  exact Finset.sum_congr rfl fun k _ => congrArg v (funext fun a => Fin.ext (by match a with | ⟨0, _⟩ => rfl | ⟨1, _⟩ => rfl))

/-! ## The product over the shared feature axis -/

theorem lhs_axis0 (i : S512x1000.Idx) (q : dot_S512x2048_S1000x2048_S512x1000_1_1_0_0_n_n.contr.Idx) :
    (dot_S512x2048_S1000x2048_S512x1000_1_1_0_0_n_n.lhsIdx i q 0).val = (i 0).val := by
  unfold DotDims.lhsIdx
  rw [dif_neg (show ¬(0 : Fin S512x2048.rank) ∈ dot_S512x2048_S1000x2048_S512x1000_1_1_0_0_n_n.lhsBatch by decide), dif_pos (show (0 : Fin S512x2048.rank) ∈ dot_S512x2048_S1000x2048_S512x1000_1_1_0_0_n_n.lhsNonContracting by decide)]
  rfl
theorem lhs_axis1 (i : S512x1000.Idx) (q : dot_S512x2048_S1000x2048_S512x1000_1_1_0_0_n_n.contr.Idx) :
    (dot_S512x2048_S1000x2048_S512x1000_1_1_0_0_n_n.lhsIdx i q 1).val = (q ⟨0, by decide⟩).val :=
  dot_S512x2048_S1000x2048_S512x1000_1_1_0_0_n_n.lhsIdx_val_of_single rfl i q
theorem rhs_axis0 (i : S512x1000.Idx) (q : dot_S512x2048_S1000x2048_S512x1000_1_1_0_0_n_n.contr.Idx) :
    (dot_S512x2048_S1000x2048_S512x1000_1_1_0_0_n_n.rhsIdx i q 0).val = (i 1).val := by
  unfold DotDims.rhsIdx
  rw [dif_neg (show ¬(0 : Fin S1000x2048.rank) ∈ dot_S512x2048_S1000x2048_S512x1000_1_1_0_0_n_n.rhsBatch by decide), dif_pos (show (0 : Fin S1000x2048.rank) ∈ dot_S512x2048_S1000x2048_S512x1000_1_1_0_0_n_n.rhsNonContracting by decide)]
  rfl
theorem rhs_axis1 (i : S512x1000.Idx) (q : dot_S512x2048_S1000x2048_S512x1000_1_1_0_0_n_n.contr.Idx) :
    (dot_S512x2048_S1000x2048_S512x1000_1_1_0_0_n_n.rhsIdx i q 1).val = (q ⟨0, by decide⟩).val :=
  dot_S512x2048_S1000x2048_S512x1000_1_1_0_0_n_n.rhsIdx_val_of_single rfl i q

/-- Entry (p, q) of the product into the zero accumulator: the sum over the 2048 features of row p of the left
    operand times row q of the right one. -/
theorem product_apply (l : FVec Ideal S512x2048 .bf16) (r : FVec Ideal S1000x2048 .bf16) (p : Fin 512) (q : Fin 1000) :
    matmul dot_S512x2048_S1000x2048_S512x1000_1_1_0_0_n_n none l r (constant S512x1000 .f32 0x00000000#32) (ix2 p q)
      = ∑ k : Fin 2048, l (ix2 p k) * r (ix2 q k) := by
  simp only [matmul]
  rw [Ideal.matmul_constant_zero_apply, ← Equiv.sum_comp (contrEquiv1 dot_S512x2048_S1000x2048_S512x1000_1_1_0_0_n_n 2048 rfl rfl).symm]
  refine Finset.sum_congr rfl fun k _ => ?_
  have hk := contrEquiv1_symm_val dot_S512x2048_S1000x2048_S512x1000_1_1_0_0_n_n 2048 rfl rfl k
  have el : dot_S512x2048_S1000x2048_S512x1000_1_1_0_0_n_n.lhsIdx (ix2 p q) ((contrEquiv1 dot_S512x2048_S1000x2048_S512x1000_1_1_0_0_n_n 2048 rfl rfl).symm k) = ix2 p k := funext fun a => Fin.ext (by
    match a with
    | ⟨0, _⟩ => exact lhs_axis0 _ _
    | ⟨1, _⟩ => exact (lhs_axis1 _ _).trans hk)
  have er : dot_S512x2048_S1000x2048_S512x1000_1_1_0_0_n_n.rhsIdx (ix2 p q) ((contrEquiv1 dot_S512x2048_S1000x2048_S512x1000_1_1_0_0_n_n 2048 rfl rfl).symm k) = ix2 q k := funext fun a => Fin.ext (by
    match a with
    | ⟨0, _⟩ => exact rhs_axis0 _ _
    | ⟨1, _⟩ => exact (rhs_axis1 _ _).trans hk)
  rw [el, er]

/-! ## The stored value at (p, q) -/

theorem pay_at (x0 : FVec Ideal S512x2048 .f32) (x1 : FVec Ideal S1000x2048 .bf16) (x2 : FVec Ideal S1x1000 .f32)
    (p : Fin 512) (q : Fin 1000) :
    k0_pay1 (F := Ideal) x0 x1 x2 (ix2 p q)
      = finish (∑ k : Fin 2048, (x0 (ix2 p k) + eps) * (x0 (ix2 p k) + eps)) (x2 (ix2 (0 : Fin 1) q))
          (∑ k : Fin 2048, (x0 (ix2 p k) + eps) * x1 (ix2 q k)) := by
  unfold k0_pay1
  dsimp only
  simp only [divf_apply, subf_apply, sqrt_apply, maximumf_apply, addf_apply, mulf_apply, broadcast_apply]
  rw [column_broadcast_apply, column_of_vector_apply, rowsum_apply, broadcastTo_1b_ab_apply, shapeCast_self, shapeCast_self, product_apply]
  simp only [mulf_apply, addf_apply, broadcast_apply, truncf_apply, Ideal.ofBits_def, finish, eps, two, one,
    Ideal.ofBits_zero_f32, zero_sub]

end Cert.NegDist.Body

end
-- ==== Proof.Entry.lean ====
/-
  What the kernel's one region finds in the two arrays the host computes before it: the prototypes passed through
  the format change (the identity on extended reals), and the [1, 1000] row of prototype squared norms, each the
  zero word plus the sum over the 2048 features of the square.
-/
import proofs.«109261_j73031623901227_1_alg».proof.Proof.Gen.KernelIdeal.Frame
import proofs.«109261_j73031623901227_1_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

open scoped BigOperators

namespace Cert.NegDist.Entry

open Cert.KernelIdeal Cert.KernelIdeal.Gen Idealize.ShloMosaic Idealize.ShloMosaic.TcCoe Idealize.SL.Sem
open Idealize.ShloMosaic.StableHlo Idealize.ShloMosaic.ValueIdx Cert.NegDist

variable (m : (ℓ : Loc nD τ sig) → Buf (Elt Ideal) ℓ)

/-- The two argument arrays as launched, at their literal types. -/
abbrev feats (c : Dev nD) : FVec Ideal S16384x2048 .f32 := m ((c : Thread nD τ).loc main_arg0)
abbrev protos (c : Dev nD) : FVec Ideal S1000x2048 .f32 := m ((c : Thread nD τ).loc main_arg1)

/-- The array the second window stages: the prototypes after the format change. -/
theorem narrowed_eq (c : Dev nD) :
    (V m c main_v0 : S1000x2048.Idx → EReal) = truncf .bf16 (protos m c) bitsLt_bf16_f32 := by
  dsimp only [Gen.V, Gen.hostOps0]; after_results

/-- Read at (q, k) it is the prototypes there. -/
theorem narrowed_apply (c : Dev nD) (q : Fin 1000) (k : Fin 2048) :
    (V m c main_v0 : S1000x2048.Idx → EReal) (ix2 q k) = protos m c (ix2 q k) := by
  rw [narrowed_eq]; rfl

/-- The array the third window stages: the row of squared norms. -/
theorem normrow_eq (c : Dev nD) :
    (V m c main_v3 : S1x1000.Idx → EReal)
      = broadcastInDim S1x1000 ![1] bcast_S1000_S1x1000_1
          (Host.reduceAdd (F := Ideal) (mulf (protos m c) (protos m c)) (constant (F := Ideal) S_ .f32 0x00000000#32)
            reducesTo_S1000x2048_S1000_d1 h_S_) := by
  dsimp only [Gen.V, Gen.hostOps0]; after_results

/-- Read at (0, q) it is the squared norm of prototype q. -/
theorem normrow_apply (c : Dev nD) (q : Fin 1000) :
    (V m c main_v3 : S1x1000.Idx → EReal) (ix2 (0 : Fin 1) q) = psq (protos m c) q := by
  rw [normrow_eq]
  generalize protos m c = P
  rw [broadcastInDim_apply _ bcast_S1000_S1x1000_1 _ (ix2 (0 : Fin 1) q) (ix1 q) (fun a => match a with
    | ⟨0, _⟩ => by show q.val = if (1000 : Nat) = 1 then 0 else q.val; rw [if_neg (by decide)])]
  simp only [Host.reduceAdd, Ideal.hostReduceAdd_def]
  rw [Ideal.hostReduceAdd_single reducesTo_S1000x2048_S1000_d1 (by decide)]
  show Ideal.ofBits .f32 0x00000000#32 + _ = _
  rw [Ideal.ofBits_zero_f32, zero_add]
  exact Finset.sum_congr rfl fun k _ => congrArg (fun y => P y * P y)
    (funext fun a => Fin.ext (by match a with | ⟨0, _⟩ => rfl | ⟨1, _⟩ => rfl))

end Cert.NegDist.Entry

end
-- ==== Proof.KernelValue.lean ====
/-
  The kernel's result array, after its one region, is the specification of the two argument arrays.

  The grid has 32 points; point t stages feature rows 512 t … 512 t + 511 (all 2048 columns), the whole narrowed
  prototype array and the whole row of prototype squared norms, and writes back rows 512 t … 512 t + 511 (all 1000
  columns) of the result. So entry (p, q) of what point t writes is the stored value at (p, q) of those blocks, which
  is the specification at (512 t + p, q); the 32 row bands cover the result array, row r lying in band r / 512.
-/
import proofs.«109261_j73031623901227_1_alg».proof.Proof.Gen.KernelIdeal.Value
import proofs.«109261_j73031623901227_1_alg».proof.Proof.Spec
import proofs.«109261_j73031623901227_1_alg».proof.Proof.Body
import proofs.«109261_j73031623901227_1_alg».proof.Proof.Entry
import Idealize.ShloMosaic.Lib.Pipeline.Value
import Idealize.ShloMosaic.Lib.ValueIdx

noncomputable section

open scoped BigOperators

namespace Cert.NegDist.Kernel

open Cert.KernelIdeal Cert.KernelIdeal.Gen Idealize.ShloMosaic Idealize.ShloMosaic.TcCoe Idealize.SL.Sem
open Idealize.ShloMosaic.Pipeline (Dat)
open Idealize.ShloMosaic.ValueIdx Cert.NegDist Cert.NegDist.Entry Cert.NegDist.Body

variable (m : (ℓ : Loc nD τ sig) → Buf (Elt Ideal) ℓ) (ρ : Dev nD → PrngReg)

theorem zero_offsets : (![0, 0] : Fin 2 → Nat) = fun _ => 0 := funext fun a => by fin_cases a <;> rfl

/-- The block indices at point t: the features' and the result's windows move down one row band per point; the
    prototypes' and the norm row's stay at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The three input blocks at point t, at their literal types. -/
abbrev xblk (c : Dev nD) (t : Fin cfg0.N) : FVec Ideal S512x2048 .f32 := iblk m c 0 t
abbrev pblk (c : Dev nD) (t : Fin cfg0.N) : FVec Ideal S1000x2048 .bf16 := iblk m c 1 t
abbrev nblk (c : Dev nD) (t : Fin cfg0.N) : FVec Ideal S1x1000 .f32 := iblk m c 2 t

/-- Row p of the feature block at point t is row 512 t + p of the features. -/
theorem xblk_apply (c : Dev nD) (t : Fin cfg0.N) (p : Fin 512) (k : Fin 2048) (b : Fin 16384)
    (hb : b.val = 512 * t.val + p.val) : xblk m c t (ix2 p k) = feats m c (ix2 b k) := by
  obtain ⟨e0, e1, -⟩ := idx_facts t
  show V m c main_arg0 (((cfg0.win 0).blk t).view.emb (ix2 p k : S512x2048.Idx)) = m ((c : Thread nD τ).loc main_arg0) (ix2 b k)
  rw [V_main_arg0]
  refine congrArg _ (funext fun a => Fin.ext ?_)
  match a with
  | ⟨0, _⟩ => show win0_0.index t (0 : Fin 2) * 512 + 1 * p.val = b.val; omega
  | ⟨1, _⟩ => show win0_0.index t (1 : Fin 2) * 2048 + 1 * k.val = k.val; omega

/-- The prototype block is the whole narrowed prototype array, at every point. -/
theorem pblk_apply (c : Dev nD) (t : Fin cfg0.N) (q : Fin 1000) (k : Fin 2048) :
    pblk m c t (ix2 q k) = protos m c (ix2 q k) := by
  obtain ⟨-, -, e2, e3, -⟩ := idx_facts t
  show (V m c main_v0 : S1000x2048.Idx → EReal) (((cfg0.win 1).blk t).view.emb (ix2 q k : S1000x2048.Idx)) = _
  rw [← narrowed_apply m c q k]
  refine congrArg _ (funext fun a => Fin.ext ?_)
  match a with
  | ⟨0, _⟩ => show win0_1.index t (0 : Fin 2) * 1000 + 1 * q.val = q.val; omega
  | ⟨1, _⟩ => show win0_1.index t (1 : Fin 2) * 2048 + 1 * k.val = k.val; omega

/-- The norm block is the whole row of prototype squared norms, at every point. -/
theorem nblk_apply (c : Dev nD) (t : Fin cfg0.N) (q : Fin 1000) :
    nblk m c t (ix2 (0 : Fin 1) q) = psq (protos m c) q := by
  obtain ⟨-, -, -, -, e4, e5, -⟩ := idx_facts t
  show (V m c main_v3 : S1x1000.Idx → EReal) (((cfg0.win 2).blk t).view.emb (ix2 (0 : Fin 1) q : S1x1000.Idx)) = _
  rw [← normrow_apply m c q]
  refine congrArg _ (funext fun a => Fin.ext ?_)
  match a with
  | ⟨0, _⟩ => show win0_2.index t (0 : Fin 2) * 1 + 1 * 0 = 0; omega
  | ⟨1, _⟩ => show win0_2.index t (1 : Fin 2) * 1000 + 1 * q.val = q.val; omega

/-- The stored value at point t, entry j of the block, is the specification at row 512 t + j₀, column j₁. -/
theorem point_value (c : Dev nD) (t : Fin cfg0.N) (j : S512x1000.Idx) (i : S16384x1000.Idx)
    (h0 : (i 0).val = 512 * t.val + (j 0).val) (h1 : (i 1).val = (j 1).val) :
    k0_pay1 (F := Ideal) (xblk m c t) (pblk m c t) (nblk m c t) j = G (feats m c) (protos m c) i := by
  obtain ⟨p, q, rfl⟩ : ∃ (p : Fin 512) (q : Fin 1000), j = ix2 p q := ⟨j 0, j 1, eq_ix2 j⟩
  obtain ⟨b, q', rfl⟩ : ∃ (b : Fin 16384) (q' : Fin 1000), i = ix2 b q' := ⟨i 0, i 1, eq_ix2 i⟩
  obtain rfl : q' = q := Fin.ext h1
  rw [G_apply]
  refine (pay_at (xblk m c t) (pblk m c t) (nblk m c t) p q').trans ?_
  unfold negDist xsq cross shifted
  rw [nblk_apply m c t q']
  refine congrArg₂ (fun s r => finish s (psq (protos m c) q') r) ?_ ?_
  · exact Finset.sum_congr rfl fun k _ => by rw [xblk_apply m c t p k b h0]
  · exact Finset.sum_congr rfl fun k _ => by rw [xblk_apply m c t p k b h0, pblk_apply m c t q' k]

/-- What point t writes back is block t of the specification. -/
theorem flushed_eq (c : Dev nD) (t : Fin cfg0.N) :
    (dats m 0 c).flushed 3 t = ((cfg0.win 3).blk t).view.read (Elt Ideal) (G (feats m c) (protos m c)) := by
  rw [Cert.KernelIdeal.Value.flushed3]
  unfold out0_3
  rw [View.canon_unit_zero zero_offsets]
  simp only [View.ld_unit_zero (S := S512x2048) zero_offsets, View.ld_unit_zero (S := S1000x2048) zero_offsets,
    View.ld_unit_zero (S := S1x1000) zero_offsets]
  obtain ⟨-, -, -, -, -, -, e6, e7⟩ := idx_facts t
  funext j
  show k0_pay1 (F := Ideal) (xblk m c t) (pblk m c t) (nblk m c t) j
    = G (feats m c) (protos m c) (((cfg0.win 3).blk t).view.emb j)
  refine point_value m c t j _ ?_ ?_
  · show win0_3.index t (0 : Fin 2) * 512 + 1 * (j 0).val = 512 * t.val + (j 0).val; omega
  · show win0_3.index t (1 : Fin 2) * 1000 + 1 * (j 1).val = (j 1).val; omega

/-- An index of the result array is in point t's block iff each coordinate is in the block's range on its axis. -/
theorem mem_blk (t : Fin cfg0.N) (i : S16384x1000.Idx) :
    i ∈ ((cfg0.win 3).blk t).view.set ↔ ∀ a : Fin 2, win0_3.index t a * S512x1000.size a ≤ (i a).val ∧ (i a).val < win0_3.index t a * S512x1000.size a + S512x1000.size a := by
  show i ∈ ((View.whole main_v4).slice (win0_3.rect t)).set ↔ _
  rw [View.set_slice_whole, Rect.mem_set_unit]
  exact Iff.rfl

/-- Every index of the result array lies in the block of the point its row band names. -/
theorem cover (i : S16384x1000.Idx) :
    ∃ t : Fin cfg0.N, (cfg0.win 3).flush t = true ∧ i ∈ ((cfg0.win 3).blk t).view.set := by
  have hN : cfg0.N = 32 := N_0
  have hi0 : (i 0).val < 16384 := (i 0).isLt
  have hi1 : (i 1).val < 1000 := (i 1).isLt
  have ht : (i 0).val / 512 < cfg0.N := by rw [hN]; omega
  obtain ⟨-, -, -, -, -, -, e6, e7⟩ := idx_facts ⟨(i 0).val / 512, ht⟩
  have e6' : win0_3.index ⟨(i 0).val / 512, ht⟩ (0 : Fin 2) = (i 0).val / 512 := e6
  refine ⟨⟨(i 0).val / 512, ht⟩, flush0_3 _, ?_⟩
  rw [mem_blk]
  intro a
  match a with
  | ⟨0, _⟩ =>
    show win0_3.index ⟨(i 0).val / 512, ht⟩ (0 : Fin 2) * 512 ≤ (i 0).val ∧ (i 0).val < win0_3.index ⟨(i 0).val / 512, ht⟩ (0 : Fin 2) * 512 + 512
    omega
  | ⟨1, _⟩ =>
    show win0_3.index ⟨(i 0).val / 512, ht⟩ (1 : Fin 2) * 1000 ≤ (i 1).val ∧ (i 1).val < win0_3.index ⟨(i 0).val / 512, ht⟩ (1 : Fin 2) * 1000 + 1000
    omega

/-- The result array after the run is the specification. -/
theorem final (c : Dev nD) : (dats m 0 c).arrAt 3 cfg0.N = G (feats m c) (protos m c) :=
  (dats m 0 c).arrAt_eq_of_cover 3 (G (feats m c) (protos m c)) (fun t _ => flushed_eq m c t) cover

/-- The kernel's run: it terminates with the result array at the specification and the arguments unchanged. -/
theorem run : θ_run defs (onTc (τ := τ) (main (F := Ideal))) ⟨m, fun _ => 0, ρ⟩ fun r => ∀ c : Dev nD,
      r.2.mem ((c : Thread nD τ).loc main_v4) = G (feats m c) (protos m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.NegDist.Kernel

end
-- ==== Proof.lean ====
/-
  Negated Euclidean distances between 16384 shifted feature rows and 1000 prototypes, by the expansion
  ‖x' - p‖² = ‖x'‖² + ‖p‖² - 2 x'·p with x' = x + ε: the kernel computes one band of 512 rows per grid point (row sums
  of squares, a product over the 2048 features with the prototypes in a narrower format, the prototypes' squared norms
  handed in as a row computed beforehand) and the reference computes the same three sums over the whole arrays.
  Over the extended reals the two are one function, entry by entry: the format changes are the identity, each sum
  is the same sum over the same 2048 terms, the clamp, root and division by 1 are the same operations, and the
  kernel's 0 - d is the reference's -d. No step uses that the inputs are finite.

  The frames of the two kernel programs are the generated ones; the reference's frame is its generated run with the
  result dropped; the idealized kernel differs from the kernel by no rewrite, so nothing is owed for it.
-/
import proofs.«109261_j73031623901227_1_alg».proof.Defs
import proofs.«109261_j73031623901227_1_alg».proof.Proof.Gen.Kernel
import proofs.«109261_j73031623901227_1_alg».proof.Proof.Gen.Kernel.Skeleton
import proofs.«109261_j73031623901227_1_alg».proof.Proof.Gen.Kernel.Launch
import proofs.«109261_j73031623901227_1_alg».proof.Proof.Gen.Kernel.Points
import proofs.«109261_j73031623901227_1_alg».proof.Proof.Gen.Kernel.Frame
import proofs.«109261_j73031623901227_1_alg».proof.Proof.Gen.KernelIdeal
import proofs.«109261_j73031623901227_1_alg».proof.Proof.Gen.KernelIdeal.Skeleton
import proofs.«109261_j73031623901227_1_alg».proof.Proof.Gen.KernelIdeal.Launch
import proofs.«109261_j73031623901227_1_alg».proof.Proof.Gen.KernelIdeal.Points
import proofs.«109261_j73031623901227_1_alg».proof.Proof.Gen.KernelIdeal.Frame
import proofs.«109261_j73031623901227_1_alg».proof.Proof.Gen.ReferenceIdeal
import proofs.«109261_j73031623901227_1_alg».proof.Proof.Gen.Pre_finite_inputs
import proofs.«109261_j73031623901227_1_alg».proof.Proof.Gen.KernelIdeal.Value
import proofs.«109261_j73031623901227_1_alg».proof.Proof.Gen.ReferenceIdeal.Run
import proofs.«109261_j73031623901227_1_alg».proof.Proof.Gen.ReferenceIdeal.Read
import proofs.«109261_j73031623901227_1_alg».proof.Proof.Spec
import proofs.«109261_j73031623901227_1_alg».proof.Proof.RefIsSpec
import proofs.«109261_j73031623901227_1_alg».proof.Proof.KernelValue
import Idealize.ShloMosaic.Adequacy
import Idealize.ShloMosaic.Init

noncomputable section

namespace Cert.Proof

open Idealize.ShloMosaic Idealize.SL.Sem

/-- The word-level kernel terminates without fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run terminates with the arguments unchanged. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the features and the prototypes, both programs end with the result array at the
    negated clamped distances of the specification. -/
theorem algebraic : Cert.algebraic_KernelIdeal_ReferenceIdeal := by
  intro m ρ m' ρ' _ hagree
  refine ⟨fun c => Cert.NegDist.G (Cert.NegDist.Entry.feats m c) (Cert.NegDist.Entry.protos m c),
    Cert.NegDist.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.NegDist.Ref.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
